-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S7 : Shape := ⟨1, ![7]⟩
abbrev S7x8192 : Shape := ⟨2, ![7, 8192]⟩
abbrev S128000x1024 : Shape := ⟨2, ![128000, 1024]⟩
abbrev S_ : Shape := ⟨0, ![]⟩

class Facts : Prop where
  bcast_S_S7 : S_.BroadcastsInDim S7 (![] : Fin 0 → Fin S7.rank)
  reducesTo_S7_S_d0 : S7.ReducesTo [0] S_
  h_S_ : 0 < S_.numel
  bcast_S_S128000x1024 : S_.BroadcastsInDim S128000x1024 (![] : Fin 0 → Fin S128000x1024.rank)
  reducesTo_S128000x1024_S_d0_1 : S128000x1024.ReducesTo [0, 1] S_
  bcast_S_S7x8192 : S_.BroadcastsInDim S7x8192 (![] : Fin 0 → Fin S7x8192.rank)
  reducesTo_S7x8192_S_d0_1 : S7x8192.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S7 .f32) (main_arg1 : IVec S7x8192 32) (main_arg2 : FVec F S128000x1024 .f32) : IVec S_ 1 :=
  let main_v0 : FVec F S7 .f32 := Host.absf main_arg0
  let main_cst : FVec F S_ .f32 := constant S_ .f32 0x7F800000#32
  let main_v1 : FVec F S7 .f32 := broadcastInDim S7 ![] bcast_S_S7 main_cst
  let main_v2 : IVec S7 1 := cmpf .olt main_v0 main_v1
  let main_c : IVec S_ 1 := constantI S_ 1 1#1
  let main_v3 : IVec S_ 1 := (fun x v => Host.reduce IntOp.andi x v reducesTo_S7_S_d0 h_S_) main_v2 main_c
  let main_v4 : FVec F S128000x1024 .f32 := Host.absf main_arg2
  let main_cst_0 : FVec F S_ .f32 := constant S_ .f32 0x7F800000#32
  let main_v5 : FVec F S128000x1024 .f32 := broadcastInDim S128000x1024 ![] bcast_S_S128000x1024 main_cst_0
  let main_v6 : IVec S128000x1024 1 := cmpf .olt main_v4 main_v5
  let main_c_1 : IVec S_ 1 := constantI S_ 1 1#1
  let main_v7 : IVec S_ 1 := (fun x v => Host.reduce IntOp.andi x v reducesTo_S128000x1024_S_d0_1 h_S_) main_v6 main_c_1
  let main_v8 : IVec S_ 1 := andi main_v3 main_v7
  let main_c_2 : IVec S_ 32 := constantI S_ 32 0#32
  let main_v9 : IVec S7x8192 32 := broadcastInDim S7x8192 ![] bcast_S_S7x8192 main_c_2
  let main_v10 : IVec S7x8192 1 := cmpi .sge main_arg1 main_v9
  let main_c_3 : IVec S_ 1 := constantI S_ 1 1#1
  let main_v11 : IVec S_ 1 := (fun x v => Host.reduce IntOp.andi x v reducesTo_S7x8192_S_d0_1 h_S_) main_v10 main_c_3
  let main_v12 : IVec S_ 1 := andi main_v8 main_v11
  let main_c_4 : IVec S_ 32 := constantI S_ 32 128000#32
  let main_v13 : IVec S7x8192 32 := broadcastInDim S7x8192 ![] bcast_S_S7x8192 main_c_4
  let main_v14 : IVec S7x8192 1 := cmpi .slt main_arg1 main_v13
  let main_c_5 : IVec S_ 1 := constantI S_ 1 1#1
  let main_v15 : IVec S_ 1 := (fun x v => Host.reduce IntOp.andi x v reducesTo_S7x8192_S_d0_1 h_S_) main_v14 main_c_5
  fn_part1 (F := F) main_v12 main_v15
-- ==== Kernel.lean ====
abbrev S7 : Shape := ⟨1, ![7]⟩
abbrev S7x8192 : Shape := ⟨2, ![7, 8192]⟩
abbrev S128000x1024 : Shape := ⟨2, ![128000, 1024]⟩
abbrev S_ : Shape := ⟨0, ![]⟩
abbrev S57344 : Shape := ⟨1, ![57344]⟩
abbrev S7x1 : Shape := ⟨2, ![7, 1]⟩
abbrev S128000 : Shape := ⟨1, ![128000]⟩
abbrev S57344x1 : Shape := ⟨2, ![57344, 1]⟩
abbrev S1x128000 : Shape := ⟨2, ![1, 128000]⟩
abbrev S1x1024 : Shape := ⟨2, ![1, 1024]⟩
abbrev S1x2560 : Shape := ⟨2, ![1, 2560]⟩
abbrev S2560x1024 : Shape := ⟨2, ![2560, 1024]⟩

abbrev nBuf : Space → Nat
  | .hbm => 23
  | .vmem => 6
  | .smem => 0
  | _ => 0

abbrev bufTy : (tb : Table) → Fin (tcTables nBuf tb) → BufTy
  | .hbm, ⟨0, _⟩ => ⟨S7, .f32⟩
  | .hbm, ⟨1, _⟩ => ⟨S7x8192, .i32⟩
  | .hbm, ⟨2, _⟩ => ⟨S128000x1024, .f32⟩
  | .hbm, ⟨3, _⟩ => ⟨S_, .f32⟩
  | .hbm, ⟨4, _⟩ => ⟨S7, .f32⟩
  | .hbm, ⟨5, _⟩ => ⟨S7, .f32⟩
  | .hbm, ⟨6, _⟩ => ⟨S57344, .i32⟩
  | .hbm, ⟨7, _⟩ => ⟨S7x1, .f32⟩
  | .hbm, ⟨8, _⟩ => ⟨S7x8192, .f32⟩
  | .hbm, ⟨9, _⟩ => ⟨S57344, .f32⟩
  | .hbm, ⟨10, _⟩ => ⟨S_, .f32⟩
  | .hbm, ⟨11, _⟩ => ⟨S128000, .f32⟩
  | .hbm, ⟨12, _⟩ => ⟨S_, .i32⟩
  | .hbm, ⟨13, _⟩ => ⟨S57344, .i32⟩
  | .hbm, ⟨14, _⟩ => ⟨S57344, .i1⟩
  | .hbm, ⟨15, _⟩ => ⟨S_, .i32⟩
  | .hbm, ⟨16, _⟩ => ⟨S57344, .i32⟩
  | .hbm, ⟨17, _⟩ => ⟨S57344, .i32⟩
  | .hbm, ⟨18, _⟩ => ⟨S57344, .i32⟩
  | .hbm, ⟨19, _⟩ => ⟨S57344x1, .i32⟩
  | .hbm, ⟨20, _⟩ => ⟨S128000, .f32⟩
  | .hbm, ⟨21, _⟩ => ⟨S1x128000, .f32⟩
  | .hbm, ⟨22, _⟩ => ⟨S1x1024, .f32⟩
  | .local _ .vmem, ⟨0, _⟩ => ⟨S1x2560, .f32⟩
  | .local _ .vmem, ⟨1, _⟩ => ⟨S1x2560, .f32⟩
  | .local _ .vmem, ⟨2, _⟩ => ⟨S2560x1024, .f32⟩
  | .local _ .vmem, ⟨3, _⟩ => ⟨S2560x1024, .f32⟩
  | .local _ .vmem, ⟨4, _⟩ => ⟨S1x1024, .f32⟩
  | .local _ .vmem, ⟨5, _⟩ => ⟨S1x1024, .f32⟩
  | _, _ => ⟨S7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v14 : BitVec 1 := Scalar.cmpi .eq arg0 c49_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S_S7 : S_.BroadcastsInDim S7 (![] : Fin 0 → Fin S7.rank)
  shapeCasts_S7x8192_S57344 : S7x8192.ShapeCasts S57344
  bcast_S7_S7x1_0 : S7.BroadcastsInDim S7x1 (![0] : Fin 1 → Fin S7x1.rank)
  bcast_S7x1_S7x8192_0_1 : S7x1.BroadcastsInDim S7x8192 (![0, 1] : Fin 2 → Fin S7x8192.rank)
  bcast_S_S128000 : S_.BroadcastsInDim S128000 (![] : Fin 0 → Fin S128000.rank)
  bcast_S_S57344 : S_.BroadcastsInDim S57344 (![] : Fin 0 → Fin S57344.rank)
  bcast_S57344_S57344x1_0 : S57344.BroadcastsInDim S57344x1 (![0] : Fin 1 → Fin S57344x1.rank)
  shapeCasts_S128000_S1x128000 : S128000.ShapeCasts S1x128000
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  bitsLt_bf16_f32 : FTy.bits .bf16 < FTy.bits .f32
  inb_S2560x1024_S2560x1024_0_0 : ∀ a, (![0, 0] : Fin 2 → Nat) a + S2560x1024.size a ≤ S2560x1024.size a
  h_S2560x1024 : 0 < S2560x1024.numel
  scatter_S128000_S57344x1_S57344_n_0_0_1_wf : ScatterDims.WF S128000 S57344x1 S57344 [] [0] [0] 1
  dot_S1x2560_S2560x1024_S1x1024_1_0_0_1_n_n_wf : DotDims.WF S1x2560 S2560x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2560.size a ≤ S1x128000.size a
  hwx0_0 : ∀ i : grid0.Coords, EltTy.bits .f32 = 32 ∨ (Rect.block (s := S1x128000) S1x2560.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x1024.size a ≤ S128000x1024.size a
  hwx0_1 : ∀ i : grid0.Coords, EltTy.bits .f32 = 32 ∨ (Rect.block (s := S128000x1024) S2560x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)

variable [Facts₀]

def scatter_S128000_S57344x1_S57344_n_0_0_1 : ScatterDims S128000 S57344x1 S57344 where
  updateWindowDims := []
  insertedWindowDims := [0]
  scatterDimsToOperandDims := [0]
  indexVectorDim := 1
  wf := scatter_S128000_S57344x1_S57344_n_0_0_1_wf
def dot_S1x2560_S2560x1024_S1x1024_1_0_0_1_n_n : DotDims S1x2560 S2560x1024 S1x1024 where
  lhsContracting := [1]
  rhsContracting := [0]
  lhsNonContracting := [0]
  rhsNonContracting := [1]
  lhsBatch := []
  rhsBatch := []
  wf := dot_S1x2560_S2560x1024_S1x1024_1_0_0_1_n_n_wf

abbrev win0_0 : Pipeline.Window sig grid0 :=
  Pipeline.Window.ofSpec (Memref.whole main_v14) S1x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2560x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S7 : Shape := ⟨1, ![7]⟩
abbrev S7x8192 : Shape := ⟨2, ![7, 8192]⟩
abbrev S128000x1024 : Shape := ⟨2, ![128000, 1024]⟩
abbrev S_ : Shape := ⟨0, ![]⟩
abbrev S7x8192x1 : Shape := ⟨3, ![7, 8192, 1]⟩
abbrev S7x8192x1024 : Shape := ⟨3, ![7, 8192, 1024]⟩
abbrev S7x1024 : Shape := ⟨2, ![7, 1024]⟩
abbrev S1x7 : Shape := ⟨2, ![1, 7]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S7, .f32⟩
  | .hbm, ⟨1, _⟩ => ⟨S7x8192, .i32⟩
  | .hbm, ⟨2, _⟩ => ⟨S128000x1024, .f32⟩
  | .hbm, ⟨3, _⟩ => ⟨S_, .i32⟩
  | .hbm, ⟨4, _⟩ => ⟨S7x8192, .i32⟩
  | .hbm, ⟨5, _⟩ => ⟨S7x8192, .i1⟩
  | .hbm, ⟨6, _⟩ => ⟨S_, .i32⟩
  | .hbm, ⟨7, _⟩ => ⟨S7x8192, .i32⟩
  | .hbm, ⟨8, _⟩ => ⟨S7x8192, .i32⟩
  | .hbm, ⟨9, _⟩ => ⟨S7x8192, .i32⟩
  | .hbm, ⟨10, _⟩ => ⟨S7x8192x1, .i32⟩
  | .hbm, ⟨11, _⟩ => ⟨S7x8192x1024, .f32⟩
  | .hbm, ⟨12, _⟩ => ⟨S_, .f32⟩
  | .hbm, ⟨13, _⟩ => ⟨S7x1024, .f32⟩
  | .hbm, ⟨14, _⟩ => ⟨S_, .f32⟩
  | .hbm, ⟨15, _⟩ => ⟨S7x1024, .f32⟩
  | .hbm, ⟨16, _⟩ => ⟨S7x1024, .f32⟩
  | .hbm, ⟨17, _⟩ => ⟨S1x7, .f32⟩
  | .hbm, ⟨18, _⟩ => ⟨S1x1024, .f32⟩
  | _, _ => ⟨S7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S7x8192 : S_.BroadcastsInDim S7x8192 (![] : Fin 0 → Fin S7x8192.rank)
  bcast_S7x8192_S7x8192x1_0_1 : S7x8192.BroadcastsInDim S7x8192x1 (![0, 1] : Fin 2 → Fin S7x8192x1.rank)
  reducesTo_S7x8192x1024_S7x1024_d1 : S7x8192x1024.ReducesTo [1] S7x1024
  h_S_ : 0 < S_.numel
  bcast_S_S7x1024 : S_.BroadcastsInDim S7x1024 (![] : Fin 0 → Fin S7x1024.rank)
  bcast_S7_S1x7_1 : S7.BroadcastsInDim S1x7 (![1] : Fin 1 → Fin S1x7.rank)
  gather_S128000x1024_S7x8192x1_S7x8192x1024_2_0_n_n_0_2_11024_wf : GatherDims.WF S128000x1024 S7x8192x1 S7x8192x1024 [2] [0] [] [0] [] 2 ![1, 1024]
  dot_S1x7_S7x1024_S1x1024_1_0_0_1_n_n_wf : DotDims.WF S1x7 S7x1024 S1x1024 [1] [0] [0] [1] [] []

variable [Facts₀]

def gather_S128000x1024_S7x8192x1_S7x8192x1024_2_0_n_n_0_2_11024 : GatherDims S128000x1024 S7x8192x1 S7x8192x1024 where
  offsetDims := [2]
  collapsedSliceDims := [0]
  operandBatchingDims := []
  startIndicesBatchingDims := []
  startIndexMap := [0]
  indexVectorDim := 2
  sliceSizes := ![1, 1024]
  wf := gather_S128000x1024_S7x8192x1_S7x8192x1024_2_0_n_n_0_2_11024_wf
def dot_S1x7_S7x1024_S1x1024_1_0_0_1_n_n : DotDims S1x7 S7x1024 S1x1024 where
  lhsContracting := [1]
  rhsContracting := [0]
  lhsNonContracting := [0]
  rhsNonContracting := [1]
  lhsBatch := []
  rhsBatch := []
  wf := dot_S1x7_S7x1024_S1x1024_1_0_0_1_n_n_wf

class Facts : Prop extends Facts₀ where

variable [Facts]
-- ==== Proof.AccValue.lean ====
/- The kernel's accumulator, read as values: what each grid point leaves in the carried scratch and, at the last
   point, in the output block. -/
import proofs.«420823_j52458730554047_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- A middle point adds its block product to what the scratch held. -/
theorem sout_B (c : Dev nD) (i : grid0.Coords) (a1 : Memref sig .tc .vmem S1x2560 .f32) (h1 : a1.IsWhole)
    (a2 : Memref sig .tc .vmem S2560x1024 .f32) (h2 : a2.IsWhole) (a3 : Memref sig .tc .vmem S1x1024 .f32) (h3 : a3.IsWhole)
    (a4 : Memref sig .tc .vmem S1x1024 .f32) (h4 : a4.IsWhole) (hc0 : ¬cond0_0 i) (hc1 : ¬cond0_1 i)
    (x0 : Vec F S1x2560 .f32) (x1 : Vec F S2560x1024 .f32) (xs0 : Vec F S1x1024 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S1x2560) hz,
    View.ld_unit_zero (S := S2560x1024) hz, View.ld_unit_zero (S := S1x1024) hz]

/-- The last point adds its block product to what the scratch held, -/
theorem sout_C (c : Dev nD) (i : grid0.Coords) (a1 : Memref sig .tc .vmem S1x2560 .f32) (h1 : a1.IsWhole)
    (a2 : Memref sig .tc .vmem S2560x1024 .f32) (h2 : a2.IsWhole) (a3 : Memref sig .tc .vmem S1x1024 .f32) (h3 : a3.IsWhole)
    (a4 : Memref sig .tc .vmem S1x1024 .f32) (h4 : a4.IsWhole) (hc0 : ¬cond0_0 i) (hc1 : cond0_1 i)
    (x0 : Vec F S1x2560 .f32) (x1 : Vec F S2560x1024 .f32) (xs0 : Vec F S1x1024 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S1x2560) hz,
    View.ld_unit_zero (S := S2560x1024) hz, View.ld_unit_zero (S := S1x1024) hz]

/-- and copies the sum into the output block. -/
theorem out_C (c : Dev nD) (i : grid0.Coords) (a1 : Memref sig .tc .vmem S1x2560 .f32) (h1 : a1.IsWhole)
    (a2 : Memref sig .tc .vmem S2560x1024 .f32) (h2 : a2.IsWhole) (a3 : Memref sig .tc .vmem S1x1024 .f32) (h3 : a3.IsWhole)
    (a4 : Memref sig .tc .vmem S1x1024 .f32) (h4 : a4.IsWhole) (hc0 : ¬cond0_0 i) (hc1 : cond0_1 i)
    (x0 : Vec F S1x2560 .f32) (x1 : Vec F S2560x1024 .f32) (xs0 : Vec F S1x1024 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz]
  simp only [View.readCov_unit_zero (S := S1x1024) _ hz, View.readAt_eq_ld, h1.read_unread, h2.read_unread,
    h4.read_unread, View.ld_unit_zero (S := S1x2560) hz, View.ld_unit_zero (S := S2560x1024) hz,
    View.ld_unit_zero (S := S1x1024) hz]

/-- The first point resets the scratch to zero and adds its block product. -/
theorem sout_A (c : Dev nD) (i : grid0.Coords) (a1 : Memref sig .tc .vmem S1x2560 .f32) (h1 : a1.IsWhole)
    (a2 : Memref sig .tc .vmem S2560x1024 .f32) (h2 : a2.IsWhole) (a3 : Memref sig .tc .vmem S1x1024 .f32) (h3 : a3.IsWhole)
    (a4 : Memref sig .tc .vmem S1x1024 .f32) (h4 : a4.IsWhole) (hc0 : cond0_0 i) (hc1 : ¬cond0_1 i)
    (x0 : Vec F S1x2560 .f32) (x1 : Vec F S2560x1024 .f32) :
    sout0_A_0 c i a1 h1 a2 h2 a3 h3 a4 h4 hc0 hc1 x0 x1 = k0_pay2 x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1024) hz]
  simp only [View.readCov_unit_zero (S := S1x1024) _ hz, View.readAt_eq_ld, h1.read_unread, h2.read_unread,
    View.ld_unit_zero (S := S1x2560) hz, View.ld_unit_zero (S := S2560x1024) hz]

/-- The histogram block and the table block the windows stage at point `t`, at their literal types. -/
abbrev wblk (c : Dev nD) (t : Fin cfg0.N) : Vec F S1x2560 .f32 := iblk m c 0 t
abbrev eblk (c : Dev nD) (t : Fin cfg0.N) : Vec F S2560x1024 .f32 := iblk m c 1 t

/-- The running sum after point `n`: zero plus the first block product, then one more block product per point. -/
def chain (c : Dev nD) : (n : ℕ) → n < cfg0.N → Vec F S1x1024 .f32
  | 0, h => k0_pay2 (wblk m c ⟨0, h⟩) (eblk m c ⟨0, h⟩) k0_pay1
  | n + 1, h => k0_pay2 (wblk m c ⟨n + 1, h⟩) (eblk m c ⟨n + 1, h⟩) (chain c n (Nat.lt_of_succ_lt h))

/-- What the scratch holds after point `n` is the running sum, by induction on the point. -/
theorem scratch_eq (c : Dev nD) : ∀ (n : ℕ) (h : n < cfg0.N), (outsAt0 m c n h).2 = chain m c n h
  | 0, h => by
    rw [outsAt0_A m c ⟨0, h⟩ (Nat.zero_mod _) (by dsimp only; omega)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) scM0_0 (Memref.isWhole_whole _) _ _ (wblk m c ⟨0, h⟩) (eblk m c ⟨0, h⟩)
  | n + 1, h => by
    have hN : cfg0.N = 50 := N_0
    have h0 : ¬(⟨n + 1, h⟩ : Fin cfg0.N).val % 50 = 0 := by dsimp only; omega
    by_cases h1 : (⟨n + 1, h⟩ : Fin cfg0.N).val % 50 = 49
    · rw [outsAt0_C m c ⟨n + 1, h⟩ h0 h1]
      dsimp only
      rw [sout_C]
      show k0_pay2 _ _ (outsAt0 m c n _).2 = k0_pay2 _ _ (chain m c n _)
      rw [scratch_eq c n]
    · rw [outsAt0_B m c ⟨n + 1, h⟩ h0 h1]
      dsimp only
      rw [sout_B]
      show k0_pay2 _ _ (outsAt0 m c n _).2 = k0_pay2 _ _ (chain m c n _)
      rw [scratch_eq c n]

theorem lt49 : 49 < cfg0.N := by rw [show cfg0.N = 50 from N_0]; decide

/-- The result: the running sum after the last point, as the contents of the result array (one block, the whole array). -/
abbrev result (c : Dev nD) : Buf (Elt F) ((c : Thread nD τ).loc main_v15) := chain m c 49 lt49

/-- The one write-back, after the last point, writes the running sum. -/
theorem flushed_eq (c : Dev nD) (t : Fin cfg0.N) (hf : (cfg0.win 2).flush t = true) :
    (dats m 0 c).flushed 2 t = ((cfg0.win 2).blk t).view.read (Elt F) (result m c) := by
  have hN : cfg0.N = 50 := N_0
  have h49 : t.val % 50 = 49 := (flush0_2 t).mp hf
  have h0 : ¬t.val % 50 = 0 := by omega
  have ht : t.val = 49 := by have := t.isLt; omega
  obtain rfl : t = ⟨49, lt49⟩ := Fin.ext ht
  rw [Value.flushed2_C m c ⟨49, lt49⟩ h0 h49, out_C]
  have e : (outsAt0 m c ((⟨49, lt49⟩ : Fin cfg0.N).val - 1) (Nat.lt_of_le_of_lt (Nat.sub_le _ _) (⟨49, lt49⟩ : Fin cfg0.N).isLt)).2
      = chain m c 48 (Nat.lt_of_succ_lt lt49) := scratch_eq m c 48 _
  rw [e]
  have hz' : (fun a => win0_2.index ⟨49, lt49⟩ a * main_v15.ty.shape.size a) = fun _ => 0 :=
    funext fun a => by fin_cases a <;> decide
  exact (Memref.read_access_unit_zero (Elt F) main_v15 hz' (fun a => by rw [congrFun hz' a]; simp) (result m c)).symm

/-- The last point's block is the whole result array, so the array ends holding the running sum. -/
theorem final (c : Dev nD) : (dats m 0 c).arrAt 2 cfg0.N = result m c :=
  (dats m 0 c).arrAt_eq_of_cover 2 (result m c) (flushed_eq m c) fun i =>
    ⟨⟨49, lt49⟩, (flush0_2 ⟨49, lt49⟩).mpr rfl, by
      show i ∈ ((View.whole main_v15).slice (win0_2.rect ⟨49, lt49⟩)).set
      rw [View.set_slice_whole, Rect.mem_set_unit]
      intro a
      have h0 : (i 0 : Nat) < 1 := (i 0).isLt
      have h1 : (i 1 : Nat) < 1024 := (i 1).isLt
      match a with
      | ⟨0, _⟩ =>
        show win0_2.index ⟨49, lt49⟩ 0 * win0_2.size 0 ≤ (i 0 : Nat)
          ∧ (i 0 : Nat) < win0_2.index ⟨49, lt49⟩ 0 * win0_2.size 0 + win0_2.xsize (grid0.coords ⟨49, lt49⟩) 0
        rw [show win0_2.index ⟨49, lt49⟩ 0 * win0_2.size 0 = 0 from by decide +kernel,
          show win0_2.xsize (grid0.coords ⟨49, lt49⟩) 0 = 1 from by decide +kernel]
        omega
      | ⟨1, _⟩ =>
        show win0_2.index ⟨49, lt49⟩ 1 * win0_2.size 1 ≤ (i 1 : Nat)
          ∧ (i 1 : Nat) < win0_2.index ⟨49, lt49⟩ 1 * win0_2.size 1 + win0_2.xsize (grid0.coords ⟨49, lt49⟩) 1
        rw [show win0_2.index ⟨49, lt49⟩ 1 * win0_2.size 1 = 0 from by decide +kernel,
          show win0_2.xsize (grid0.coords ⟨49, lt49⟩) 1 = 1024 from by decide +kernel]
        omega⟩

/-- The kernel's run, read: the result array at the running sum, the arguments unchanged. -/
theorem run : θ_run defs (onTc (τ := τ) (main (F := F))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Acc

end
-- ==== Proof.BlockRead.lean ====
/- The staged blocks read at an element: block `t` of the histogram row holds its columns 2560·t … 2560·t + 2559,
   block `t` of the table its rows 2560·t … 2560·t + 2559. -/
import proofs.«420823_j52458730554047_1_alg».proof.Proof.AccValue
import Idealize.ShloMosaic.Lib.ValueIdx

noncomputable section

open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]
variable (m : (ℓ : Loc nD τ sig) → Buf (Elt F) ℓ)

/-- Where the two input windows' blocks sit at point `t`, decided over the grid. -/
theorem block_index : ∀ t : Fin cfg0.N, (win0_0.index t 0 = 0 ∧ win0_0.index t 1 = t.val)
    ∧ (win0_1.index t 0 = t.val ∧ win0_1.index t 1 = 0) :=
  (by decide +kernel : ∀ t : Fin grid0.N, (win0_0.index t 0 = 0 ∧ win0_0.index t 1 = t.val)
    ∧ (win0_1.index t 0 = t.val ∧ win0_1.index t 1 = 0))

theorem row_lt (t : Fin cfg0.N) (k : Fin 2560) : 2560 * t.val + k.val < 128000 := by
  have := lt_of_lt_of_eq t.isLt (show cfg0.N = 50 from N_0); have := k.isLt; omega

/-- The histogram block at point `t`, column `k`: the row's column 2560·t + k. -/
theorem wblk_apply (c : Dev nD) (t : Fin cfg0.N) (k : Fin 2560) :
    wblk m c t (ix2 (0 : Fin 1) k) = V m c main_v14 (ix2 (0 : Fin 1) (⟨2560 * t.val + k.val, row_lt t k⟩ : Fin 128000)) := by
  unfold wblk iblk
  rw [View.read_apply]
  show V m c main_v14 _ = V m c main_v14 _
  congr 1
  funext a
  apply Fin.ext
  match a with
  | ⟨0, _⟩ => show win0_0.index t 0 * 1 + 1 * 0 = 0; rw [(block_index t).1.1]
  | ⟨1, _⟩ => show win0_0.index t 1 * 2560 + 1 * k.val = 2560 * t.val + k.val; rw [(block_index t).1.2]; omega

/-- The table block at point `t`, row `k`, column `d`: the table's row 2560·t + k, column `d`. -/
theorem eblk_apply (c : Dev nD) (t : Fin cfg0.N) (k : Fin 2560) (d : Fin 1024) :
    eblk m c t (ix2 k d)
      = m ((c : Thread nD τ).loc main_arg2) (ix2 (⟨2560 * t.val + k.val, row_lt t k⟩ : Fin 128000) d) := by
  unfold eblk iblk
  rw [View.read_apply]
  show V m c main_arg2 _ = _
  rw [V_main_arg2]
  congr 1
  funext a
  apply Fin.ext
  match a with
  | ⟨0, _⟩ => show win0_1.index t 0 * 2560 + 1 * k.val = 2560 * t.val + k.val; rw [(block_index t).2.1]; omega
  | ⟨1, _⟩ => show win0_1.index t 1 * 1024 + 1 * d.val = d.val; rw [(block_index t).2.2]; omega

end Cert.KernelIdeal.Acc

end
-- ==== Proof.BlockProduct.lean ====
/- One grid point's arithmetic read at an element, over the extended reals: what the scratch held plus the
   product of the histogram block's row with the table block's column. -/
import proofs.«420823_j52458730554047_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen

/-- The reset stores zeros. -/
theorem pay1_apply (i : S1x1024.Idx) : k0_pay1 (F := Ideal) i = (0 : EReal) := by
  unfold k0_pay1
  simp only [shapeCast_self]
  exact Ideal.ofBits_zero_f32

/-- The left operand's index at output index `i` and contraction index `q`: its row is the output's row. -/
theorem lhs_pay2_0 (i : S1x1024.Idx) (q : dot_S1x2560_S2560x1024_S1x1024_1_0_0_1_n_n.contr.Idx) :
    (dot_S1x2560_S2560x1024_S1x1024_1_0_0_1_n_n.lhsIdx i q 0).val = (i 0).val := by
  unfold DotDims.lhsIdx
  rw [dif_neg (show ¬(0 : Fin S1x2560.rank) ∈ dot_S1x2560_S2560x1024_S1x1024_1_0_0_1_n_n.lhsBatch by decide), dif_pos (show (0 : Fin S1x2560.rank) ∈ dot_S1x2560_S2560x1024_S1x1024_1_0_0_1_n_n.lhsNonContracting by decide)]
  rfl
/-- … and its column is the contraction coordinate. -/
theorem lhs_pay2_1 (i : S1x1024.Idx) (q : dot_S1x2560_S2560x1024_S1x1024_1_0_0_1_n_n.contr.Idx) :
    (dot_S1x2560_S2560x1024_S1x1024_1_0_0_1_n_n.lhsIdx i q 1).val = (q ⟨0, by decide⟩).val :=
  dot_S1x2560_S2560x1024_S1x1024_1_0_0_1_n_n.lhsIdx_val_of_single rfl i q
/-- The right operand's row is the contraction coordinate. -/
theorem rhs_pay2_0 (i : S1x1024.Idx) (q : dot_S1x2560_S2560x1024_S1x1024_1_0_0_1_n_n.contr.Idx) :
    (dot_S1x2560_S2560x1024_S1x1024_1_0_0_1_n_n.rhsIdx i q 0).val = (q ⟨0, by decide⟩).val :=
  dot_S1x2560_S2560x1024_S1x1024_1_0_0_1_n_n.rhsIdx_val_of_single rfl i q
/-- … and its column is the output's column. -/
theorem rhs_pay2_1 (i : S1x1024.Idx) (q : dot_S1x2560_S2560x1024_S1x1024_1_0_0_1_n_n.contr.Idx) :
    (dot_S1x2560_S2560x1024_S1x1024_1_0_0_1_n_n.rhsIdx i q 1).val = (i 1).val := by
  unfold DotDims.rhsIdx
  rw [dif_neg (show ¬(1 : Fin S2560x1024.rank) ∈ dot_S1x2560_S2560x1024_S1x1024_1_0_0_1_n_n.rhsBatch by decide), dif_pos (show (1 : Fin S2560x1024.rank) ∈ dot_S1x2560_S2560x1024_S1x1024_1_0_0_1_n_n.rhsNonContracting by decide)]
  rfl

/-- A point's update at column `d`: the accumulator there plus the sum over the block's 2560 rows. -/
theorem pay2_apply (x0 : Vec Ideal S1x2560 .f32) (x1 : Vec Ideal S2560x1024 .f32) (acc : Vec Ideal S1x1024 .f32)
    (p : Fin 1) (d : Fin 1024) :
    k0_pay2 (F := Ideal) x0 x1 acc (ix2 p d) = acc (ix2 p d) + ∑ k : Fin 2560, x0 (ix2 p k) * x1 (ix2 k d) := by
  unfold k0_pay2
  simp only [shapeCast_self]
  refine (ValueIdx.addf_apply _ _ _).trans ?_
  refine congrArg (acc (ix2 p d) + ·) ?_
  simp only [matmul]
  rw [Ideal.matmul_constant_zero_apply, ← Equiv.sum_comp (ValueIdx.contrEquiv1 dot_S1x2560_S2560x1024_S1x1024_1_0_0_1_n_n 2560 rfl rfl).symm]
  refine Finset.sum_congr rfl fun k _ => ?_
  have hk := ValueIdx.contrEquiv1_symm_val dot_S1x2560_S2560x1024_S1x1024_1_0_0_1_n_n 2560 rfl rfl k
  have el : dot_S1x2560_S2560x1024_S1x1024_1_0_0_1_n_n.lhsIdx (ix2 p d) ((ValueIdx.contrEquiv1 dot_S1x2560_S2560x1024_S1x1024_1_0_0_1_n_n 2560 rfl rfl).symm k) = ix2 p k := funext fun a => Fin.ext (by
    match a with
    | ⟨0, _⟩ => exact lhs_pay2_0 _ _
    | ⟨1, _⟩ => exact (lhs_pay2_1 _ _).trans hk)
  have er : dot_S1x2560_S2560x1024_S1x1024_1_0_0_1_n_n.rhsIdx (ix2 p d) ((ValueIdx.contrEquiv1 dot_S1x2560_S2560x1024_S1x1024_1_0_0_1_n_n 2560 rfl rfl).symm k) = ix2 k d := funext fun a => Fin.ext (by
    match a with
    | ⟨0, _⟩ => exact (rhs_pay2_0 _ _).trans hk
    | ⟨1, _⟩ => exact rhs_pay2_1 _ _)
  rw [el, er]
  rfl

end Cert.KernelIdeal.Block

end
-- ==== Proof.AccSum.lean ====
/- Over the extended reals the running sum after the last point is, at column `d`, the sum over every table row of the
   histogram entry times the table entry: fifty blocks of 2560 rows, added in order, regrouped as one sum. -/
import proofs.«420823_j52458730554047_1_alg».proof.Proof.AccValue
import proofs.«420823_j52458730554047_1_alg».proof.Proof.BlockRead
import proofs.«420823_j52458730554047_1_alg».proof.Proof.BlockProduct
import Idealize.ShloMosaic.Lib.ValueIdx

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The histogram row and the table as the launch finds them, and the result array, at their literal types. -/
abbrev histArr (c : Dev nD) : Vec Ideal S1x128000 .f32 := V m c main_v14
abbrev tableArr (c : Dev nD) : Vec Ideal S128000x1024 .f32 := m ((c : Thread nD τ).loc main_arg2)
abbrev resultArr (c : Dev nD) : Vec Ideal S1x1024 .f32 := result m c

/-- One point's block product at column `d`. -/
def blockSum (c : Dev nD) (t : Fin cfg0.N) (d : Fin 1024) : EReal :=
  ∑ k : Fin 2560, wblk m c t (ix2 (0 : Fin 1) k) * eblk m c t (ix2 k d)

theorem chain_zero (c : Dev nD) (h : 0 < cfg0.N) :
    chain m c 0 h = k0_pay2 (F := Ideal) (wblk m c ⟨0, h⟩) (eblk m c ⟨0, h⟩) (k0_pay1 (F := Ideal)) := rfl

theorem chain_succ (c : Dev nD) (n : ℕ) (h : n + 1 < cfg0.N) :
    chain m c (n + 1) h
      = k0_pay2 (F := Ideal) (wblk m c ⟨n + 1, h⟩) (eblk m c ⟨n + 1, h⟩) (chain m c n (Nat.lt_of_succ_lt h)) := rfl

/-- The running sum after point `n`, at column `d`, is the sum of the block products of points `0 … n`. -/
theorem chain_apply (c : Dev nD) (d : Fin 1024) : ∀ (n : ℕ) (h : n < cfg0.N),
    chain m c n h (ix2 (0 : Fin 1) d) = ∑ t : Fin (n + 1), blockSum m c ⟨t.val, lt_of_lt_of_le t.isLt h⟩ d
  | 0, h => by
    rw [chain_zero, Block.pay2_apply, Block.pay1_apply, zero_add]
    exact (Fin.sum_univ_one (fun t : Fin 1 => blockSum m c ⟨t.val, lt_of_lt_of_le t.isLt h⟩ d)).symm
  | n + 1, h => by
    rw [chain_succ, Block.pay2_apply, chain_apply c d n (Nat.lt_of_succ_lt h)]
    exact (Fin.sum_univ_castSucc (fun t : Fin (n + 1 + 1) => blockSum m c ⟨t.val, lt_of_lt_of_le t.isLt h⟩ d)).symm

/-- Fifty consecutive blocks of 2560 rows are the 128000 rows. -/
theorem sum_blocks (g : Fin 128000 → EReal) :
    ∑ t : Fin 50, ∑ k : Fin 2560, g ⟨2560 * t.val + k.val, by have := t.isLt; have := k.isLt; omega⟩
      = ∑ v : Fin 128000, g v := by
  rw [← Fintype.sum_prod_type']
  refine Fintype.sum_equiv (finProdFinEquiv : Fin 50 × Fin 2560 ≃ Fin 128000) _ _ fun x => ?_
  refine congrArg g (Fin.ext ?_)
  show 2560 * x.1.val + x.2.val = x.2.val + 2560 * x.1.val
  omega

/-- The result array at column `d`: the histogram row against the table's column `d`. -/
theorem result_apply (c : Dev nD) (p : Fin 1) (d : Fin 1024) :
    resultArr m c (ix2 p d) = ∑ v : Fin 128000, histArr m c (ix2 (0 : Fin 1) v) * tableArr m c (ix2 v d) := by
  obtain rfl : p = 0 := Subsingleton.elim _ _
  show chain m c 49 lt49 (ix2 (0 : Fin 1) d) = _
  rw [chain_apply m c d 49 lt49, ← sum_blocks]
  refine Finset.sum_congr rfl fun t _ => ?_
  unfold blockSum
  refine Finset.sum_congr rfl fun k _ => ?_
  rw [wblk_apply, eblk_apply]

end Cert.KernelIdeal.Acc

end
-- ==== Proof.ScatterRead.lean ====
/- The accumulating scatter of the histogram step, read at one table row: the operand's entry plus the sum of
   the updates whose (signed, unclamped) scatter index is that row. -/
import proofs.«420823_j52458730554047_1_alg».proof.KernelIdeal
import Idealize.ShloMosaic.Lib.ValueIdx

noncomputable section

namespace Cert.KernelIdeal.Hist

open Idealize.ShloMosaic Idealize.ShloMosaic.ValueIdx Cert.KernelIdeal

variable [Facts₀]

/-- On the operand's one axis, which is inserted, the window coordinate is zero. -/
theorem scatter_window (j : S57344.Idx) (a : Fin S128000.rank) :
    scatter_S128000_S57344x1_S57344_n_0_0_1.window j a = 0 := by
  unfold ScatterDims.window
  rw [dif_neg]
  intro h
  have h2 := of_decide_eq_true (List.mem_filter.mp h).2
  exact h2 (List.mem_singleton.mpr (Subsingleton.elim _ _))

/-- On the operand's one axis the start is the scatter index of the update, read signed. -/
theorem scatter_start (j : Fin 57344) (idx : IVec S57344x1 32) (a : Fin S128000.rank) :
    scatter_S128000_S57344x1_S57344_n_0_0_1.start (ix1 j) idx a = (idx (ix2 j (0 : Fin 1))).toInt := by
  obtain rfl : a = 0 := Subsingleton.elim _ _
  unfold ScatterDims.start
  rw [dif_pos (show (0 : Fin S128000.rank) ∈ scatter_S128000_S57344x1_S57344_n_0_0_1.scatterDimsToOperandDims from
    List.mem_singleton.mpr rfl)]
  have hsi : scatter_S128000_S57344x1_S57344_n_0_0_1.siIdx (ix1 j)
      ⟨List.idxOf (0 : Fin S128000.rank) scatter_S128000_S57344x1_S57344_n_0_0_1.scatterDimsToOperandDims,
        List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- An update lands on row `v` exactly when its signed scatter index is `v`. -/
theorem scatter_resultIdx_iff (j : Fin 57344) (idx : IVec S57344x1 32) (v : Fin 128000) :
    scatter_S128000_S57344x1_S57344_n_0_0_1.resultIdx? (ix1 j) idx = some (ix1 v)
      ↔ (idx (ix2 j (0 : Fin 1))).toInt = (v.val : ℤ) := by
  have hs : S128000.size 0 = 128000 := rfl
  constructor
  · intro h
    unfold ScatterDims.resultIdx? at h
    split at h
    · rename_i hc
      have h0 := hc 0
      rw [scatter_start, scatter_window] at h0
      have hv := congrArg Fin.val (congrFun (Option.some.inj h) 0)
      simp only [scatter_start, scatter_window] at hv
      have hv' : ((idx (ix2 j (0 : Fin 1))).toInt + ((0 : Nat) : ℤ)).toNat = v.val := hv
      omega
    · exact absurd h (by simp)
  · intro h
    unfold ScatterDims.resultIdx?
    have hc : ∀ a, 0 ≤ scatter_S128000_S57344x1_S57344_n_0_0_1.start (ix1 j) idx a
          + scatter_S128000_S57344x1_S57344_n_0_0_1.window (ix1 j) a ∧
        scatter_S128000_S57344x1_S57344_n_0_0_1.start (ix1 j) idx a
          + scatter_S128000_S57344x1_S57344_n_0_0_1.window (ix1 j) a < S128000.size a := by
      intro a
      obtain rfl : a = 0 := Subsingleton.elim _ _
      rw [scatter_start, scatter_window, hs, h]
      have := v.isLt
      omega
    rw [dif_pos hc]
    congr 1
    funext a
    obtain rfl : a = 0 := Subsingleton.elim _ _
    refine Fin.ext ?_
    show (scatter_S128000_S57344x1_S57344_n_0_0_1.start (ix1 j) idx 0
      + scatter_S128000_S57344x1_S57344_n_0_0_1.window (ix1 j) 0).toNat = v.val
    rw [scatter_start, scatter_window, h]
    omega

theorem scatterAdd_apply (x : FVec Ideal S128000 .f32) (idx : IVec S57344x1 32) (upd : FVec Ideal S57344 .f32)
    (v : Fin 128000) :
    Host.scatterAdd scatter_S128000_S57344x1_S57344_n_0_0_1 x idx upd (ix1 v)
      = x (ix1 v) + ∑ j ∈ Finset.univ.filter (fun j : Fin 57344 => (idx (ix2 j (0 : Fin 1))).toInt = (v.val : ℤ)),
          upd (ix1 j) := by
  show Ideal.hostScatterAdd scatter_S128000_S57344x1_S57344_n_0_0_1 x idx upd (ix1 v) = _
  unfold Ideal.hostScatterAdd
  refine congrArg (fun t => x (ix1 v) + t) ?_
  symm
  refine Finset.sum_bij (fun j _ => ix1 j) ?_ ?_ ?_ ?_
  · intro j hj
    simp only [Finset.mem_filter, Finset.mem_univ, true_and] at hj ⊢
    exact (scatter_resultIdx_iff j idx v).mpr hj
  · intro a _ b _ h
    exact congrFun h 0
  · intro b hb
    obtain ⟨a, rfl⟩ : ∃ a : Fin 57344, b = ix1 a := ⟨b 0, eq_ix1 b⟩
    refine ⟨a, ?_, rfl⟩
    simp only [Finset.mem_filter, Finset.mem_univ, true_and] at hb ⊢
    exact (scatter_resultIdx_iff a idx v).mp hb
  · intro a _
    rfl

end Cert.KernelIdeal.Hist

end
-- ==== Proof.HistRead.lean ====
/- The histogram row the kernel's host code builds before the launch, as one term of the ratios and the ids, and that
   term read at a table row: zero plus, over the positions whose id is that row, the position's ratio over 8192. -/
import proofs.«420823_j52458730554047_1_alg».proof.Proof.Gen.KernelIdeal.Frame.Runs
import proofs.«420823_j52458730554047_1_alg».proof.Proof.ScatterRead
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.Hist

open Idealize.ShloMosaic Idealize.ShloMosaic.TcCoe Idealize.ShloMosaic.ValueIdx Idealize.SL.Sem
open Cert.KernelIdeal Cert.KernelIdeal.Gen

variable {F : FTy → Type} [FloatOps F]

/-- The host operations before the launch, composed: the ratios over 8192, laid along the flattened positions, scatter-added
    into a zero vector at the flattened (wrapped) ids, as a one-row matrix. -/
def histRow (a0 : (⟨S7, .f32⟩ : BufTy).Contents (Elt F)) (a1 : (⟨S7x8192, .i32⟩ : BufTy).Contents (Elt F)) :
    (⟨S1x128000, .f32⟩ : BufTy).Contents (Elt F) :=
  shapeCast S1x128000
    (Host.scatterAdd scatter_S128000_S57344x1_S57344_n_0_0_1
      (broadcastInDim S128000 ![] bcast_S_S128000 (constant S_ .f32 0x00000000#32))
      (broadcastInDim S57344x1 ![0] bcast_S57344_S57344x1_0
        (select
          (cmpi .slt (shapeCast S57344 a1 shapeCasts_S7x8192_S57344)
            (broadcastInDim S57344 ![] bcast_S_S57344 (constantI S_ 32 0#32)))
          (addi (shapeCast S57344 a1 shapeCasts_S7x8192_S57344)
            (broadcastInDim S57344 ![] bcast_S_S57344 (constantI S_ 32 128000#32)))
          (shapeCast S57344 a1 shapeCasts_S7x8192_S57344)))
      (shapeCast S57344
        (broadcastInDim S7x8192 ![0, 1] bcast_S7x1_S7x8192_0_1
          (broadcastInDim S7x1 ![0] bcast_S7_S7x1_0
            (Host.divf a0 (broadcastInDim S7 ![] bcast_S_S7 (constant S_ .f32 0x46000000#32)))))
        shapeCasts_S7x8192_S57344))
    shapeCasts_S128000_S1x128000

/-- What the launch finds in the histogram operand is that term of the two arguments. -/
theorem V_main_v14 (m : (ℓ : Loc nD τ sig) → Buf (Elt F) ℓ) (c : Dev nD) :
    V m c main_v14 = histRow (m ((c : Thread nD τ).loc main_arg0)) (m ((c : Thread nD τ).loc main_arg1)) := by
  unfold histRow
  dsimp only [V, hostOps0]
  after_results
  rfl

/-- The flattened position `8192·r + l` of position `(r, l)`: the positions as the flat positions. -/
private def flat : Fin 7 × Fin 8192 ≃ Fin 57344 where
  toFun p := ⟨8192 * p.1.val + p.2.val, by have := p.1.isLt; have := p.2.isLt; omega⟩
  invFun j := (⟨j.val / 8192, by have := j.isLt; omega⟩, ⟨j.val % 8192, Nat.mod_lt _ (by decide)⟩)
  left_inv p := by
    obtain ⟨⟨r, hr⟩, ⟨l, hl⟩⟩ := p
    refine Prod.ext (Fin.ext ?_) (Fin.ext ?_)
    · show (8192 * r + l) / 8192 = r
      omega
    · show (8192 * r + l) % 8192 = l
      omega
  right_inv j := by
    apply Fin.ext
    show 8192 * (j.val / 8192) + j.val % 8192 = j.val
    omega

/-- The reshape [7,8192] → [57344] read at `8192·r + l` is the element at `(r, l)`. -/
private theorem flatten_apply {α : Type} (x : S7x8192.Idx → α) (r : Fin 7) (l : Fin 8192) :
    shapeCast S57344 x shapeCasts_S7x8192_S57344 (ix1 (flat (r, l))) = x (ix2 r l) := by
  refine shapeCast_apply x _ _ _ ?_
  rw [Shape.rowMajor_val_two, Shape.rowMajor_val_one]
  show r.val * 8192 + l.val = 8192 * r.val + l.val
  omega

/-- The reshape [128000] → [1,128000] read at `(0, v)` is the element at `v`. -/
private theorem unflatten_apply {α : Type} (x : S128000.Idx → α) (v : Fin 128000) :
    shapeCast S1x128000 x shapeCasts_S128000_S1x128000 (ix2 (0 : Fin 1) v) = x (ix1 v) := by
  refine shapeCast_apply x _ _ _ ?_
  rw [Shape.rowMajor_val_two, Shape.rowMajor_val_one]
  show v.val = 0 * 128000 + v.val
  omega

/-- The column [57344] → [57344,1] read at `(j, 0)` is the element at `j`. -/
private theorem column_apply {α : Type} (x : S57344.Idx → α) (j : Fin 57344) :
    broadcastInDim S57344x1 ![0] bcast_S57344_S57344x1_0 x (ix2 j (0 : Fin 1)) = x (ix1 j) :=
  broadcastInDim_apply _ bcast_S57344_S57344x1_0 x _ (ix1 j) (fun a => match a with
    | ⟨0, _⟩ => by show j.val = if (57344 : Nat) = 1 then 0 else j.val; rw [if_neg (by decide)])

/-- The ratios laid along the positions, [7] → [7,1] → [7,8192], read at `(r, l)`: the ratio at `r`. -/
private theorem rows_apply {α : Type} (x : S7.Idx → α) (r : Fin 7) (l : Fin 8192) :
    broadcastInDim S7x8192 ![0, 1] bcast_S7x1_S7x8192_0_1 (broadcastInDim S7x1 ![0] bcast_S7_S7x1_0 x) (ix2 r l) = x (ix1 r) := by
  refine (broadcastInDim_apply _ bcast_S7x1_S7x8192_0_1 _ _ (ix2 r (0 : Fin 1)) (fun a => match a with
    | ⟨0, _⟩ => by show r.val = if (7 : Nat) = 1 then 0 else r.val; rw [if_neg (by decide)]
    | ⟨1, _⟩ => by show (0 : Nat) = if (1 : Nat) = 1 then 0 else l.val; rw [if_pos rfl])).trans ?_
  exact broadcastInDim_apply _ bcast_S7_S7x1_0 x _ (ix1 r) (fun a => match a with
    | ⟨0, _⟩ => by show r.val = if (7 : Nat) = 1 then 0 else r.val; rw [if_neg (by decide)])

/-- The zero vector read at `v` is the zero pattern's value. -/
private theorem zeros_apply (v : Fin 128000) :
    broadcastInDim S128000 ![] bcast_S_S128000 (constant (F := Ideal) S_ .f32 0x00000000#32) (ix1 v)
      = Ideal.ofBits .f32 0x00000000#32 :=
  (broadcastInDim_apply _ bcast_S_S128000 _ _ ix0 (fun a => a.elim0)).trans rfl

/-- A word read signed as a nonnegative number does not test below zero. -/
private theorem slt_zero_of_nonneg {x : BitVec 32} (hx : 0 ≤ x.toInt) : IntOp.cmpi .slt x 0#32 = 0#1 := by
  refine ValueIdx.eq_zero_of_ne_one fun h => ?_
  have := IntOp.cmpi_slt.1 h
  rw [show (0#32 : BitVec 32).toInt = 0 from by decide] at this
  omega

/-- The scatter's index at flat position `8192·r + l`, for an id that is not negative: the id at `(r, l)`. -/
private theorem idx_apply (a1 : S7x8192.Idx → BitVec 32) (r : Fin 7) (l : Fin 8192) (h : 0 ≤ (a1 (ix2 r l)).toInt) :
    broadcastInDim S57344x1 ![0] bcast_S57344_S57344x1_0
        (select
          (cmpi .slt (shapeCast S57344 a1 shapeCasts_S7x8192_S57344)
            (broadcastInDim S57344 ![] bcast_S_S57344 (constantI S_ 32 0#32)))
          (addi (shapeCast S57344 a1 shapeCasts_S7x8192_S57344)
            (broadcastInDim S57344 ![] bcast_S_S57344 (constantI S_ 32 128000#32)))
          (shapeCast S57344 a1 shapeCasts_S7x8192_S57344))
        (ix2 (flat (r, l)) (0 : Fin 1))
      = a1 (ix2 r l) := by
  rw [column_apply, select_apply]
  show Scalar.select (IntOp.cmpi .slt (shapeCast S57344 a1 shapeCasts_S7x8192_S57344 (ix1 (flat (r, l)))) 0#32) _ _ = _
  rw [flatten_apply, slt_zero_of_nonneg h, select_zero]

/-- The scatter's update at flat position `8192·r + l`: the ratio at `r` over 8192. -/
private theorem upd_apply (a0 : S7.Idx → EReal) (r : Fin 7) (l : Fin 8192) :
    shapeCast S57344
        (broadcastInDim S7x8192 ![0, 1] bcast_S7x1_S7x8192_0_1
          (broadcastInDim S7x1 ![0] bcast_S7_S7x1_0
            (Host.divf (F := Ideal) (φ := .f32) a0 (broadcastInDim S7 ![] bcast_S_S7 (constant S_ .f32 0x46000000#32)))))
        shapeCasts_S7x8192_S57344 (ix1 (flat (r, l)))
      = Ideal.div (a0 (ix1 r)) (Ideal.ofBits .f32 0x46000000#32) := by
  rw [flatten_apply, rows_apply]
  rfl

/-- Read at table row `v`, for ids that are rows of the table. -/
theorem histRow_apply (a0 : (⟨S7, .f32⟩ : BufTy).Contents (Elt Ideal)) (a1 : (⟨S7x8192, .i32⟩ : BufTy).Contents (Elt Ideal))
    (hr : ∀ i, 0 ≤ (a1 i).toInt ∧ (a1 i).toInt < 128000) (v : Fin 128000) :
    histRow (F := Ideal) a0 a1 (ix2 (0 : Fin 1) v)
      = Ideal.ofBits .f32 0x00000000#32
        + ∑ p ∈ Finset.univ.filter (fun p : Fin 7 × Fin 8192 => (a1 (ix2 p.1 p.2)).toInt = (v.val : ℤ)),
            Ideal.div (a0 (ix1 p.1)) (Ideal.ofBits .f32 0x46000000#32) := by
  unfold histRow
  rw [unflatten_apply, scatterAdd_apply, zeros_apply]
  refine congrArg (Ideal.ofBits .f32 0x00000000#32 + ·) ?_
  refine (Finset.sum_equiv flat (fun p => ?_) (fun p _ => ?_)).symm
  · obtain ⟨r, l⟩ := p
    simp only [Finset.mem_filter, Finset.mem_univ, true_and]
    rw [idx_apply a1 r l (hr _).1]
  · obtain ⟨r, l⟩ := p
    exact (upd_apply a0 r l).symm

end Cert.KernelIdeal.Hist

end
-- ==== Proof.GatherRead.lean ====
/- The row gather of the reference, read at one element: the table at the start index (read signed, clamped into
   the table's rows) and the element's own column. -/
import proofs.«420823_j52458730554047_1_alg».proof.ReferenceIdeal
import Idealize.ShloMosaic.Lib.ValueIdx

noncomputable section

namespace Cert.ReferenceIdeal.Take

open Idealize.ShloMosaic Idealize.ShloMosaic.ValueIdx Cert.ReferenceIdeal

variable [Facts₀]

local notation "G" => gather_S128000x1024_S7x8192x1_S7x8192x1024_2_0_n_n_0_2_11024

theorem gather_apply {α : Type} (x : S128000x1024.Idx → α) (idx : IVec S7x8192x1 32) (r : Fin 7) (l : Fin 8192)
    (d : Fin 1024) :
    Host.gather gather_S128000x1024_S7x8192x1_S7x8192x1024_2_0_n_n_0_2_11024 x idx (ix3 r l d)
      = x (ix2 (⟨min (idx (ix3 r l (0 : Fin 1))).toInt.toNat 127999, by omega⟩ : Fin 128000) d) := by
  unfold Host.gather
  congr 1
  funext a
  match a with
  | ⟨0, h0⟩ =>
    -- the row axis is collapsed and carries the start index: no batching or offset part, the start is the clamped index
    refine Fin.ext ?_
    show GatherDims.start G (ix3 r l d) idx ⟨0, h0⟩ + GatherDims.batchCoord G (ix3 r l d) ⟨0, h0⟩
      + GatherDims.offCoord G (ix3 r l d) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ GatherDims.startIndexMap G from List.mem_singleton.mpr rfl)]
    have hsi : GatherDims.siIdx G (ix3 r l d) ⟨List.idxOf (⟨0, h0⟩ : Fin 2) (GatherDims.startIndexMap G),
        List.idxOf_lt_length_iff.2 (List.mem_singleton.mpr rfl)⟩ = ix3 r l (0 : Fin 1) := by
      funext b; refine Fin.ext ?_
      match b with
      | ⟨0, _⟩ => rfl
      | ⟨1, _⟩ => rfl
      | ⟨2, _⟩ => rfl
    rw [hsi]
    rfl
  | ⟨1, h1⟩ =>
    -- the column axis is the one offset axis: start and batching part are zero, the offset is the result's last coordinate
    refine Fin.ext ?_
    show GatherDims.start G (ix3 r l d) idx ⟨1, h1⟩ + GatherDims.batchCoord G (ix3 r l d) ⟨1, h1⟩
      + GatherDims.offCoord G (ix3 r l d) ⟨1, h1⟩ = _
    rw [GatherDims.batchCoord_eq_zero _ _ _ List.not_mem_nil]
    have hs : GatherDims.start G (ix3 r l d) idx ⟨1, h1⟩ = 0 := by
      unfold GatherDims.start
      exact dif_neg (fun h => absurd (congrArg Fin.val (List.mem_singleton.mp h)) Nat.one_ne_zero)
    rw [hs]
    simp only [Nat.add_zero, Nat.zero_add]
    unfold GatherDims.offCoord
    rw [dif_pos ((GatherDims.mem_sKept _ _).mpr
      ⟨fun h => absurd (congrArg Fin.val (List.mem_singleton.mp h)) Nat.one_ne_zero, List.not_mem_nil⟩)]
    rfl

end Cert.ReferenceIdeal.Take

end
-- ==== Proof.RefValue.lean ====
/- The reference read at an element: over the seven sequences, the ratio times the mean, over the 8192 positions, of the
   table entries in the rows the ids name. -/
import proofs.«420823_j52458730554047_1_alg».proof.Proof.Gen.ReferenceIdeal.Read
import proofs.«420823_j52458730554047_1_alg».proof.Proof.GatherRead
import Idealize.ShloMosaic.Lib.Affine

noncomputable section

namespace Cert.ReferenceIdeal.Pool

open Idealize.ShloMosaic Idealize.ShloMosaic.ValueIdx Cert.ReferenceIdeal Cert.ReferenceIdeal.Read

/-- The table row the id at position `(k, l)` names (read signed; clamped into the table, which changes nothing for an
    id that is a row of the table). -/
def rowAt (x1 : IVec S7x8192 32) (k : Fin 7) (l : Fin 8192) : Fin 128000 :=
  ⟨min (x1 (ix2 k l)).toInt.toNat 127999, by omega⟩

/-- A nonnegative id is not wrapped. -/
theorem wrapped_apply (x1 : (⟨S7x8192, .i32⟩ : BufTy).Contents (Elt Ideal)) (i : S7x8192.Idx) (h : 0 ≤ (x1 i).toInt) :
    val_main_v4 (F := Ideal) x1 i = x1 i := by
  rw [val_main_v4_apply, val_main_v1_apply, val_main_v0_apply, val_main_c_apply]
  have e : IntOp.cmpi .slt (x1 i) 0#32 = 0#1 :=
    eq_zero_of_ne_one fun hc => by
      have := IntOp.cmpi_slt.mp hc
      rw [show (0#32 : BitVec 32).toInt = 0 from by decide] at this
      omega
  rw [e, select_zero]

/-- The gathered table entry at sequence `k`, position `l`, column `d`. -/
theorem gathered_apply (x1 : (⟨S7x8192, .i32⟩ : BufTy).Contents (Elt Ideal)) (x2 : (⟨S128000x1024, .f32⟩ : BufTy).Contents (Elt Ideal))
    (hr : ∀ i, 0 ≤ (x1 i).toInt ∧ (x1 i).toInt < 128000) (k : Fin 7) (l : Fin 8192) (d : Fin 1024) :
    val_main_v6 (F := Ideal) x1 x2 (ix3 k l d) = x2 (ix2 (rowAt x1 k l) d) := by
  unfold val_main_v6
  rw [Take.gather_apply]
  have ei : idx_main_v5 (ix3 k l (0 : Fin 1)) = ix2 k l :=
    funext fun a => Fin.ext (by match a with | ⟨0, _⟩ => rfl | ⟨1, _⟩ => rfl)
  have ew : val_main_v5 (F := Ideal) x1 (ix3 k l (0 : Fin 1)) = x1 (ix2 k l) := by
    rw [val_main_v5_apply, ei, wrapped_apply x1 (ix2 k l) (hr _).1]
  refine congrArg x2 (congrArg (fun r => ix2 r d) (Fin.ext ?_))
  show min (BitVec.toInt (val_main_v5 (F := Ideal) x1 (ix3 k l (0 : Fin 1)))).toNat 127999
    = min (x1 (ix2 k l)).toInt.toNat 127999
  rw [ew]

/-- The reference's result at column `d`. -/
theorem result_apply (x0 : (⟨S7, .f32⟩ : BufTy).Contents (Elt Ideal)) (x1 : (⟨S7x8192, .i32⟩ : BufTy).Contents (Elt Ideal))
    (x2 : (⟨S128000x1024, .f32⟩ : BufTy).Contents (Elt Ideal)) (hr : ∀ i, 0 ≤ (x1 i).toInt ∧ (x1 i).toInt < 128000)
    (p : Fin 1) (d : Fin 1024) :
    val_main_v11 (F := Ideal) x0 x1 x2 (ix2 p d)
      = ∑ k : Fin 7, x0 (ix1 k)
          * Ideal.div (Ideal.ofBits .f32 0x00000000#32 + ∑ l : Fin 8192, x2 (ix2 (rowAt x1 k l) d))
              (Ideal.ofBits .f32 0x46000000#32) := by
  rw [val_main_v11_apply]
  refine Finset.sum_congr rfl fun k _ => ?_
  rw [val_main_v10_apply, val_main_v9_apply, val_main_v7_apply, val_main_v8_apply, val_main_cst_1_apply, val_main_cst_apply]
  have e0 : idx_main_v10 (lidx_main_v11 (ix2 p d) k) = ix1 k :=
    funext fun a => Fin.ext (by match a with | ⟨0, _⟩ => rfl)
  have e1 : ∀ l : Fin 8192, idx_main_v7 (ridx_main_v11 (ix2 p d) k) l = ix3 k l d := fun l =>
    funext fun a => Fin.ext (by match a with | ⟨0, _⟩ => rfl | ⟨1, _⟩ => rfl | ⟨2, _⟩ => rfl)
  rw [e0]
  simp only [e1, gathered_apply x1 x2 hr, Ideal.hostDivf_def, Ideal.ofBits_def]

end Cert.ReferenceIdeal.Pool

end
-- ==== Proof.PreDecode.lean ====
/- What the precondition says of the arguments: every ratio and every table entry is a real number, and every
   id is a row of the table. -/
import proofs.«420823_j52458730554047_1_alg».proof.Pre_finite_inputs
import Idealize.ShloMosaic.Lib.ReduceAll
import Idealize.ShloMosaic.Lib.ValueIdx
import Idealize.ShloMosaic.Lib.StableHlo.Predicate

noncomputable section

namespace Cert.Pre_finite_inputs.Decode

open Idealize.ShloMosaic Idealize.ShloMosaic.ValueIdx Cert.Pre_finite_inputs

variable [Facts]

/-- The pattern `0x7F800000` is the positive infinity. -/
private theorem ofBits_inf : Ideal.ofBits .f32 0x7F800000#32 = (⊤ : EReal) := by
  simp [Ideal.ofBits, Ideal.ieee]

/-- An extended real whose absolute value `max x (-x)` is strictly below the positive infinity is a real number:
    at `⊥` and at `⊤` the absolute value is `⊤`. -/
private theorem real_of_abs_lt (x : EReal)
    (hx : Ideal.cmp .olt (max x (-x)) (Ideal.ofBits .f32 0x7F800000#32) = 1#1) : ∃ r : ℝ, x = (r : EReal) := by
  rw [ofBits_inf] at hx
  induction x using EReal.rec with
  | bot => simp [Ideal.cmp] at hx
  | coe r => exact ⟨r, rfl⟩
  | top => simp [Ideal.cmp] at hx

theorem decode (a0 : FVec Ideal S7 .f32) (a1 : IVec S7x8192 32) (a2 : FVec Ideal S128000x1024 .f32)
    (h : fn (F := Ideal) a0 a1 a2 = fun _ => 1#1) :
    (∀ i, ∃ r : ℝ, a0 i = (r : EReal)) ∧ (∀ i, ∃ r : ℝ, a2 i = (r : EReal))
      ∧ (∀ i, 0 ≤ (a1 i).toInt ∧ (a1 i).toInt < 128000) := by
  -- the scalar shape has one index
  haveI : Subsingleton S_.Idx := ⟨fun a b => funext fun d => d.elim0⟩
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ⟨?_, ?_⟩⟩
  · exact real_of_abs_lt (a0 i) (Host.reduce_andi_all _ _ _ _ _ h1 i)
  · exact real_of_abs_lt (a2 i) (Host.reduce_andi_all _ _ _ _ _ h2 i)
  · have e : IntOp.cmpi .sge (a1 i) 0#32 = 1#1 := Host.reduce_andi_all _ _ _ _ _ h3 i
    have := IntOp.cmpi_sge.1 e
    rwa [show (0#32 : BitVec 32).toInt = 0 from by decide] at this
  · have e : IntOp.cmpi .slt (a1 i) 128000#32 = 1#1 := Host.reduce_andi_all _ _ _ _ _ h4 i
    have := IntOp.cmpi_slt.1 e
    rwa [show (128000#32 : BitVec 32).toInt = 128000 from by decide] at this

end Cert.Pre_finite_inputs.Decode

end
-- ==== Proof.PoolLaw.lean ====
/- The algebra that joins the two programs: a weighted sum over table rows of a histogram of scaled ratios is
   the ratio-weighted sum of the per-sequence means, for real ratios and real table entries. -/
import Idealize.ShloMosaic.PureOps.Ideal

noncomputable section

namespace Cert.PoolLaw

open Idealize.ShloMosaic

/-- The coercion of the reals into the extended reals commutes with finite sums. -/
theorem coe_finset_sum {ι : Type} (s : Finset ι) (f : ι → ℝ) :
    (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

/-- The real identity: summing, over the table rows, the fibre sums of the scaled ratios times the row's
    entry is summing over every (sequence, position) pair, which splits into the ratio times the mean. -/
theorem pool_law_real {R L V : Type} [Fintype R] [Fintype L] [Fintype V] [DecidableEq V]
    (a : R → ℝ) (e : V → ℝ) (id : R → L → V) :
    (∑ v : V, (∑ p ∈ Finset.univ.filter (fun p : R × L => id p.1 p.2 = v), a p.1 * (1 / 8192 : ℝ)) * e v)
      = ∑ r : R, a r * ((∑ l : L, e (id r l)) * (1 / 8192 : ℝ)) := by
  have hL : ∀ v : V,
      (∑ p ∈ Finset.univ.filter (fun p : R × L => id p.1 p.2 = v), a p.1 * (1 / 8192 : ℝ)) * e v
        = ∑ p ∈ Finset.univ.filter (fun p : R × L => id p.1 p.2 = v),
            a p.1 * (1 / 8192 : ℝ) * e (id p.1 p.2) := by
    intro v
    rw [Finset.sum_mul]
    refine Finset.sum_congr rfl (fun p hp => ?_)
    rw [(Finset.mem_filter.mp hp).2]
  rw [Finset.sum_congr rfl (fun v _ => hL v)]
  rw [Finset.sum_fiberwise (Finset.univ) (fun p : R × L => id p.1 p.2)
    (fun p => a p.1 * (1 / 8192 : ℝ) * e (id p.1 p.2))]
  rw [Fintype.sum_prod_type]
  refine Finset.sum_congr rfl (fun r _ => ?_)
  rw [Finset.sum_mul, Finset.mul_sum]
  refine Finset.sum_congr rfl (fun l _ => ?_)
  ring

theorem pool_law {R L V : Type} [Fintype R] [Fintype L] [Fintype V] [DecidableEq V]
    (a : R → ℝ) (e : V → ℝ) (id : R → L → V) :
    (∑ v : V, ((0 : EReal) + ∑ p ∈ Finset.univ.filter (fun p : R × L => id p.1 p.2 = v),
        Ideal.div (a p.1 : EReal) ((8192 : ℝ) : EReal)) * (e v : EReal))
      = ∑ r : R, (a r : EReal) * Ideal.div ((0 : EReal) + ∑ l : L, (e (id r l) : EReal)) ((8192 : ℝ) : EReal) := by
  have h8 : (8192 : ℝ) ≠ 0 := by norm_num
  simp only [Ideal.div_coe h8, zero_add, ← EReal.coe_mul, coe_finset_sum]
  rw [EReal.coe_eq_coe_iff]
  exact pool_law_real a e id

end Cert.PoolLaw

end
-- ==== Proof.Bridge.lean ====
/- The two programs meet: for real ratios, real table entries and ids that are rows of the table, the histogram row
   against a table column is the ratio-weighted sum of the per-sequence means of that column. -/
import proofs.«420823_j52458730554047_1_alg».proof.Proof.HistRead
import proofs.«420823_j52458730554047_1_alg».proof.Proof.RefValue
import proofs.«420823_j52458730554047_1_alg».proof.Proof.PreDecode
import proofs.«420823_j52458730554047_1_alg».proof.Proof.PoolLaw
import proofs.«420823_j52458730554047_1_alg».proof.Proof.Gen.Pre_finite_inputs
import Idealize.ShloMosaic.PureOps.Ideal.Laws

noncomputable section

namespace Cert.Pool

open Idealize.ShloMosaic Idealize.ShloMosaic.ValueIdx

/-- The divisor `8192.0` denotes the real 8192. -/
theorem ofBits_8192 : Ideal.ofBits .f32 0x46000000#32 = ((8192 : ℝ) : EReal) := by
  simp [Ideal.ofBits, Ideal.ieee, -EReal.coe_mul]; norm_num

/-- For an id that is a row of the table, "the id is row `v`" read as a signed word and read as the named row agree. -/
theorem row_iff (a1 : IVec Cert.ReferenceIdeal.S7x8192 32) (k : Fin 7) (l : Fin 8192)
    (h : 0 ≤ (a1 (ix2 k l)).toInt ∧ (a1 (ix2 k l)).toInt < 128000) (v : Fin 128000) :
    (a1 (ix2 k l)).toInt = (v.val : ℤ) ↔ Cert.ReferenceIdeal.Pool.rowAt a1 k l = v := by
  constructor
  · intro e
    refine Fin.ext ?_
    show min (a1 (ix2 k l)).toInt.toNat 127999 = v.val
    have := v.isLt
    omega
  · intro e
    have e' : min (a1 (ix2 k l)).toInt.toNat 127999 = v.val := congrArg Fin.val e
    omega

/-- The kernel's value at column `d` is the reference's, under the precondition. -/
theorem kernel_eq_reference (a0 : (⟨Cert.ReferenceIdeal.S7, .f32⟩ : BufTy).Contents (Elt Ideal))
    (a1 : (⟨Cert.ReferenceIdeal.S7x8192, .i32⟩ : BufTy).Contents (Elt Ideal))
    (a2 : (⟨Cert.ReferenceIdeal.S128000x1024, .f32⟩ : BufTy).Contents (Elt Ideal))
    (hpre : Cert.Pre_finite_inputs.fn (F := Ideal) a0 a1 a2 = fun _ => 1#1) (d : Fin 1024) :
    ∑ v : Fin 128000, Cert.KernelIdeal.Hist.histRow (F := Ideal) a0 a1 (ix2 (0 : Fin 1) v) * a2 (ix2 v d)
      = Cert.ReferenceIdeal.Read.val_main_v11 (F := Ideal) a0 a1 a2 (ix2 (0 : Fin 1) d) := by
  obtain ⟨hfin0, hfin2, hr⟩ := Cert.Pre_finite_inputs.Decode.decode a0 a1 a2 hpre
  choose A hA using hfin0
  choose E hE using hfin2
  rw [Cert.ReferenceIdeal.Pool.result_apply a0 a1 a2 hr 0 d]
  simp only [Cert.KernelIdeal.Hist.histRow_apply a0 a1 hr, Ideal.ofBits_zero_f32, ofBits_8192, hA, hE]
  have hf : ∀ v : Fin 128000,
      (Finset.univ.filter fun p : Fin 7 × Fin 8192 => (a1 (ix2 p.1 p.2)).toInt = (v.val : ℤ))
        = Finset.univ.filter fun p : Fin 7 × Fin 8192 => Cert.ReferenceIdeal.Pool.rowAt a1 p.1 p.2 = v := fun v =>
    Finset.filter_congr fun p _ => row_iff a1 p.1 p.2 (hr _) v
  simp only [hf]
  exact Cert.PoolLaw.pool_law (R := Fin 7) (L := Fin 8192) (V := Fin 128000) (fun r => A (ix1 r)) (fun v => E (ix2 v d))
    (Cert.ReferenceIdeal.Pool.rowAt a1)

end Cert.Pool

end
-- ==== Proof.lean ====
/- The certificate of a pooled-embedding kernel against its reference, over the extended reals.

   The reference gathers, for each of 7 sequences, the 8192 table rows its ids name, takes their mean column by column
   and combines the 7 means with the ratios. The kernel first counts, per table row, the ratios over 8192 of the
   positions that name it (a scatter-add into a zero vector), and then multiplies that row vector with the whole table,
   fifty blocks of 2560 rows accumulated in a scratch and copied out after the last block. Both are
   `∑ over positions (r, l) of ratio r / 8192 · table[id r l, d]`; the regrouping by table row is where the real-number
   laws (distributivity, division by 8192 as a product) are used, hence the finiteness of the ratios and the table; the ids
   must be rows of the table, where the reference's clamping gather and the kernel's dropping scatter agree.

   The three frames are the generated ones (the reference's is its generated run with the result dropped); the kernel's
   idealization rewrote nothing. -/
import proofs.«420823_j52458730554047_1_alg».proof.Defs
import proofs.«420823_j52458730554047_1_alg».proof.Proof.Gen.Kernel
import proofs.«420823_j52458730554047_1_alg».proof.Proof.Gen.Kernel.Skeleton
import proofs.«420823_j52458730554047_1_alg».proof.Proof.Gen.Kernel.Launch
import proofs.«420823_j52458730554047_1_alg».proof.Proof.Gen.Kernel.Points
import proofs.«420823_j52458730554047_1_alg».proof.Proof.Gen.Kernel.Frame
import proofs.«420823_j52458730554047_1_alg».proof.Proof.Gen.KernelIdeal
import proofs.«420823_j52458730554047_1_alg».proof.Proof.Gen.KernelIdeal.Skeleton
import proofs.«420823_j52458730554047_1_alg».proof.Proof.Gen.KernelIdeal.Launch
import proofs.«420823_j52458730554047_1_alg».proof.Proof.Gen.KernelIdeal.Points
import proofs.«420823_j52458730554047_1_alg».proof.Proof.Gen.KernelIdeal.Frame
import proofs.«420823_j52458730554047_1_alg».proof.Proof.Gen.ReferenceIdeal
import proofs.«420823_j52458730554047_1_alg».proof.Proof.Gen.Pre_finite_inputs
import proofs.«420823_j52458730554047_1_alg».proof.Proof.Gen.KernelIdeal.Value
import proofs.«420823_j52458730554047_1_alg».proof.Proof.Gen.ReferenceIdeal.Run
import proofs.«420823_j52458730554047_1_alg».proof.Proof.Gen.ReferenceIdeal.Read
import proofs.«420823_j52458730554047_1_alg».proof.Proof.AccSum
import proofs.«420823_j52458730554047_1_alg».proof.Proof.Bridge
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the running sum after the last point, the reference's at its composed term of
    arguments that agree; column by column the two are one extended real. -/
theorem algebraic : Cert.algebraic_KernelIdeal_ReferenceIdeal := by
  intro m ρ m' ρ' hpre hagree
  refine ⟨fun c => Cert.KernelIdeal.Acc.result m c, Cert.KernelIdeal.Acc.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2]
  funext i
  obtain ⟨p, d, rfl⟩ : ∃ (p : Fin 1) (d : Fin 1024), i = ix2 p d := ⟨i 0, i 1, eq_ix2 i⟩
  obtain rfl : p = 0 := Subsingleton.elim _ _
  refine Eq.trans ?_ (Cert.KernelIdeal.Acc.result_apply m c 0 d).symm
  have e := Cert.Pool.kernel_eq_reference _ _ _ (hpre c) d
  rw [← e]
  refine Finset.sum_congr rfl fun v _ => ?_
  rw [show Cert.KernelIdeal.Acc.histArr m c = _ from Cert.KernelIdeal.Hist.V_main_v14 m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
